-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S5000x128 : Shape := ⟨2, ![5000, 128]⟩
abbrev S550000x128 : Shape := ⟨2, ![550000, 128]⟩
abbrev S1x128 : Shape := ⟨2, ![1, 128]⟩
abbrev S50000x64 : Shape := ⟨2, ![50000, 64]⟩
abbrev S5000x64 : Shape := ⟨2, ![5000, 64]⟩
abbrev S550000x64 : Shape := ⟨2, ![550000, 64]⟩
abbrev S1x64 : Shape := ⟨2, ![1, 64]⟩

abbrev nBuf : Space → Nat
  | .hbm => 82
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S550000, .i32⟩
  | .hbm, ⟨28, _⟩ => ⟨S550000, .i1⟩
  | .hbm, ⟨29, _⟩ => ⟨S_, .i32⟩
  | .hbm, ⟨30, _⟩ => ⟨S550000, .i32⟩
  | .hbm, ⟨31, _⟩ => ⟨S550000, .i32⟩
  | .hbm, ⟨32, _⟩ => ⟨S550000, .i32⟩
  | .hbm, ⟨33, _⟩ => ⟨S550000x1, .i32⟩
  | .hbm, ⟨34, _⟩ => ⟨S550000, .f32⟩
  | .hbm, ⟨35, _⟩ => ⟨S_, .i32⟩
  | .hbm, ⟨36, _⟩ => ⟨S550000, .i32⟩
  | .hbm, ⟨37, _⟩ => ⟨S550000, .i1⟩
  | .hbm, ⟨38, _⟩ => ⟨S_, .i32⟩
  | .hbm, ⟨39, _⟩ => ⟨S550000, .i32⟩
  | .hbm, ⟨40, _⟩ => ⟨S550000, .i32⟩
  | .hbm, ⟨41, _⟩ => ⟨S550000, .i32⟩
  | .hbm, ⟨42, _⟩ => ⟨S550000x1, .i32⟩
  | .hbm, ⟨43, _⟩ => ⟨S550000, .f32⟩
  | .hbm, ⟨44, _⟩ => ⟨S550000, .f32⟩
  | .hbm, ⟨45, _⟩ => ⟨S550000x1, .f32⟩
  | .hbm, ⟨46, _⟩ => ⟨S50000x128, .f32⟩
  | .hbm, ⟨47, _⟩ => ⟨S_, .i32⟩
  | .hbm, ⟨48, _⟩ => ⟨S550000, .i32⟩
  | .hbm, ⟨49, _⟩ => ⟨S550000, .i1⟩
  | .hbm, ⟨50, _⟩ => ⟨S_, .i32⟩
  | .hbm, ⟨51, _⟩ => ⟨S550000, .i32⟩
  | .hbm, ⟨52, _⟩ => ⟨S550000, .i32⟩
  | .hbm, ⟨53, _⟩ => ⟨S550000, .i32⟩
  | .hbm, ⟨54, _⟩ => ⟨S550000x1, .i32⟩
  | .hbm, ⟨55, _⟩ => ⟨S550000x128, .f32⟩
  | .hbm, ⟨56, _⟩ => ⟨S550000x128, .f32⟩
  | .hbm, ⟨57, _⟩ => ⟨S550000x128, .f32⟩
  | .hbm, ⟨58, _⟩ => ⟨S_, .f32⟩
  | .hbm, ⟨59, _⟩ => ⟨S50000x128, .f32⟩
  | .hbm, ⟨60, _⟩ => ⟨S550000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x64, .f32⟩
  | .hbm, ⟨65, _⟩ => ⟨S_, .i32⟩
  | .hbm, ⟨66, _⟩ => ⟨S550000, .i32⟩
  | .hbm, ⟨67, _⟩ => ⟨S550000, .i1⟩
  | .hbm, ⟨68, _⟩ => ⟨S_, .i32⟩
  | .hbm, ⟨69, _⟩ => ⟨S550000, .i32⟩
  | .hbm, ⟨70, _⟩ => ⟨S550000, .i32⟩
  | .hbm, ⟨71, _⟩ => ⟨S550000, .i32⟩
  | .hbm, ⟨72, _⟩ => ⟨S550000x1, .i32⟩
  | .hbm, ⟨73, _⟩ => ⟨S550000x64, .f32⟩
  | .hbm, ⟨74, _⟩ => ⟨S550000x64, .f32⟩
  | .hbm, ⟨75, _⟩ => ⟨S550000x64, .f32⟩
  | .hbm, ⟨76, _⟩ => ⟨S_, .f32⟩
  | .hbm, ⟨77, _⟩ => ⟨S50000x64, .f32⟩
  | .hbm, ⟨78, _⟩ => ⟨S550000x1, .i32⟩
  | .hbm, ⟨79, _⟩ => ⟨S50000x64, .f32⟩
  | .hbm, ⟨80, _⟩ => ⟨S1x64, .f32⟩
  | .hbm, ⟨81, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x128_S128x64_S5000x64_1_0_0_1_n_n_wf : DotDims.WF S5000x128 S128x64 S5000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x64 : Shape := ⟨2, ![50000, 64]⟩
abbrev S550000x64 : Shape := ⟨2, ![550000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S50000x128, .f32⟩
  | .hbm, ⟨14, _⟩ => ⟨S_, .f32⟩
  | .hbm, ⟨15, _⟩ => ⟨S550000, .f32⟩
  | .hbm, ⟨16, _⟩ => ⟨S_, .f32⟩
  | .hbm, ⟨17, _⟩ => ⟨S50000, .f32⟩
  | .hbm, ⟨18, _⟩ => ⟨S550000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S550000, .i32⟩
  | .hbm, ⟨29, _⟩ => ⟨S550000, .i1⟩
  | .hbm, ⟨30, _⟩ => ⟨S_, .i32⟩
  | .hbm, ⟨31, _⟩ => ⟨S550000, .i32⟩
  | .hbm, ⟨32, _⟩ => ⟨S550000, .i32⟩
  | .hbm, ⟨33, _⟩ => ⟨S550000, .i32⟩
  | .hbm, ⟨34, _⟩ => ⟨S550000x1, .i32⟩
  | .hbm, ⟨35, _⟩ => ⟨S550000, .f32⟩
  | .hbm, ⟨36, _⟩ => ⟨S_, .i32⟩
  | .hbm, ⟨37, _⟩ => ⟨S550000, .i32⟩
  | .hbm, ⟨38, _⟩ => ⟨S550000, .i1⟩
  | .hbm, ⟨39, _⟩ => ⟨S_, .i32⟩
  | .hbm, ⟨40, _⟩ => ⟨S550000, .i32⟩
  | .hbm, ⟨41, _⟩ => ⟨S550000, .i32⟩
  | .hbm, ⟨42, _⟩ => ⟨S550000, .i32⟩
  | .hbm, ⟨43, _⟩ => ⟨S550000x1, .i32⟩
  | .hbm, ⟨44, _⟩ => ⟨S550000, .f32⟩
  | .hbm, ⟨45, _⟩ => ⟨S550000, .f32⟩
  | .hbm, ⟨46, _⟩ => ⟨S_, .i32⟩
  | .hbm, ⟨47, _⟩ => ⟨S550000, .i32⟩
  | .hbm, ⟨48, _⟩ => ⟨S550000, .i1⟩
  | .hbm, ⟨49, _⟩ => ⟨S_, .i32⟩
  | .hbm, ⟨50, _⟩ => ⟨S550000, .i32⟩
  | .hbm, ⟨51, _⟩ => ⟨S550000, .i32⟩
  | .hbm, ⟨52, _⟩ => ⟨S550000, .i32⟩
  | .hbm, ⟨53, _⟩ => ⟨S550000x1, .i32⟩
  | .hbm, ⟨54, _⟩ => ⟨S550000x128, .f32⟩
  | .hbm, ⟨55, _⟩ => ⟨S550000x1, .f32⟩
  | .hbm, ⟨56, _⟩ => ⟨S550000x128, .f32⟩
  | .hbm, ⟨57, _⟩ => ⟨S550000x128, .f32⟩
  | .hbm, ⟨58, _⟩ => ⟨S_, .f32⟩
  | .hbm, ⟨59, _⟩ => ⟨S50000x128, .f32⟩
  | .hbm, ⟨60, _⟩ => ⟨S550000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x64, .f32⟩
  | .hbm, ⟨69, _⟩ => ⟨S_, .f32⟩
  | .hbm, ⟨70, _⟩ => ⟨S550000, .f32⟩
  | .hbm, ⟨71, _⟩ => ⟨S_, .f32⟩
  | .hbm, ⟨72, _⟩ => ⟨S50000, .f32⟩
  | .hbm, ⟨73, _⟩ => ⟨S550000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S550000, .i32⟩
  | .hbm, ⟨84, _⟩ => ⟨S550000, .i1⟩
  | .hbm, ⟨85, _⟩ => ⟨S_, .i32⟩
  | .hbm, ⟨86, _⟩ => ⟨S550000, .i32⟩
  | .hbm, ⟨87, _⟩ => ⟨S550000, .i32⟩
  | .hbm, ⟨88, _⟩ => ⟨S550000, .i32⟩
  | .hbm, ⟨89, _⟩ => ⟨S550000x1, .i32⟩
  | .hbm, ⟨90, _⟩ => ⟨S550000, .f32⟩
  | .hbm, ⟨91, _⟩ => ⟨S_, .i32⟩
  | .hbm, ⟨92, _⟩ => ⟨S550000, .i32⟩
  | .hbm, ⟨93, _⟩ => ⟨S550000, .i1⟩
  | .hbm, ⟨94, _⟩ => ⟨S_, .i32⟩
  | .hbm, ⟨95, _⟩ => ⟨S550000, .i32⟩
  | .hbm, ⟨96, _⟩ => ⟨S550000, .i32⟩
  | .hbm, ⟨97, _⟩ => ⟨S550000, .i32⟩
  | .hbm, ⟨98, _⟩ => ⟨S550000x1, .i32⟩
  | .hbm, ⟨99, _⟩ => ⟨S550000, .f32⟩
  | .hbm, ⟨100, _⟩ => ⟨S550000, .f32⟩
  | .hbm, ⟨101, _⟩ => ⟨S_, .i32⟩
  | .hbm, ⟨102, _⟩ => ⟨S550000, .i32⟩
  | .hbm, ⟨103, _⟩ => ⟨S550000, .i1⟩
  | .hbm, ⟨104, _⟩ => ⟨S_, .i32⟩
  | .hbm, ⟨105, _⟩ => ⟨S550000, .i32⟩
  | .hbm, ⟨106, _⟩ => ⟨S550000, .i32⟩
  | .hbm, ⟨107, _⟩ => ⟨S550000, .i32⟩
  | .hbm, ⟨108, _⟩ => ⟨S550000x1, .i32⟩
  | .hbm, ⟨109, _⟩ => ⟨S550000x64, .f32⟩
  | .hbm, ⟨110, _⟩ => ⟨S550000x1, .f32⟩
  | .hbm, ⟨111, _⟩ => ⟨S550000x64, .f32⟩
  | .hbm, ⟨112, _⟩ => ⟨S550000x64, .f32⟩
  | .hbm, ⟨113, _⟩ => ⟨S_, .f32⟩
  | .hbm, ⟨114, _⟩ => ⟨S50000x64, .f32⟩
  | .hbm, ⟨115, _⟩ => ⟨S550000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x64_S50000x64_1_0_0_1_n_n_wf : DotDims.WF S50000x128 S128x64 S50000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf

class Facts : Prop extends Facts₀ where

variable [Facts]
-- ==== Proof.HostChain.lean ====
/-
  The host operations of the program between its launches, read against the stages of the reference. Both programs build the
  same graph quantities from the edge list with the same operations: the source and target index vectors (the edge list's two
  rows, each followed by the self loops 0 … 49999), the in-degree by a scatter-add of ones, its inverse square root where
  positive, the edge weight as the product of the two gathered inverse roots, and, per layer, the gather of the source rows,
  their scaling by the edge weight and the scatter-add into the target rows. Each stretch of host operations is read here
  from an arbitrary valuation of the buffers: given that the buffers it reads hold the reference's stages of the same
  arguments, the buffers it writes hold the reference's next stages; a buffer it does not write keeps its contents.
-/
import proofs.«110779_j23390391894412_1_alg».proof.Proof.Gen.KernelIdeal.Launch
import proofs.«110779_j23390391894412_1_alg».proof.Proof.RefRead
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

local notation "dr" => Proc.devRef (τ := τ) (sig := sig) Proc.tc

/-! ## The first stretch: index vectors, in-degree, its inverse root's three ingredients -/

theorem s0_v3 : after hostOps0 V (dr main_v3) = val_main_v3 (V (dr main_arg1)) := by
  after_results; rfl
theorem s0_v6 : after hostOps0 V (dr main_v6) = val_main_v6 (V (dr main_arg1)) := by
  after_results; rfl
theorem s0_v12 : after hostOps0 V (dr main_v12) = val_main_v13 (V (dr main_arg1)) := by
  after_results; rfl
theorem s0_v13 : after hostOps0 V (dr main_v13) = val_main_v14 (V (dr main_arg1)) := by
  after_results; rfl
theorem s0_v14 : after hostOps0 V (dr main_v14) = val_main_v15 (F := F) := by
  after_results; rfl
theorem s0_arg0 : after hostOps0 V (dr main_arg0) = V (dr main_arg0) := by after_results
theorem s0_arg2 : after hostOps0 V (dr main_arg2) = V (dr main_arg2) := by after_results
theorem s0_arg3 : after hostOps0 V (dr main_arg3) = V (dr main_arg3) := by after_results
theorem s0_arg4 : after hostOps0 V (dr main_arg4) = V (dr main_arg4) := by after_results
theorem s0_arg5 : after hostOps0 V (dr main_arg5) = V (dr main_arg5) := by after_results

/-! ## The second stretch: the inverse root where the degree is positive, zero elsewhere -/

theorem s01_v15 (x1 : (⟨S2x500000, .i32⟩ : BufTy).Contents (Elt F))
    (h12 : V (dr main_v12) = val_main_v13 x1) (h13 : V (dr main_v13) = val_main_v14 x1) (h14 : V (dr main_v14) = val_main_v15) :
    after hostOps0_1 V (dr main_v15) = val_main_v16 x1 := by
  after_results
  try simp only [TRef.ofBuf, TRef.toBuf, cast_eq]
  rw [h12, h13, h14]; rfl
theorem s01_v3 : after hostOps0_1 V (dr main_v3) = V (dr main_v3) := by after_results
theorem s01_v6 : after hostOps0_1 V (dr main_v6) = V (dr main_v6) := by after_results
theorem s01_arg0 : after hostOps0_1 V (dr main_arg0) = V (dr main_arg0) := by after_results
theorem s01_arg2 : after hostOps0_1 V (dr main_arg2) = V (dr main_arg2) := by after_results
theorem s01_arg3 : after hostOps0_1 V (dr main_arg3) = V (dr main_arg3) := by after_results
theorem s01_arg4 : after hostOps0_1 V (dr main_arg4) = V (dr main_arg4) := by after_results
theorem s01_arg5 : after hostOps0_1 V (dr main_arg5) = V (dr main_arg5) := by after_results

/-! ## The third stretch: the edge weight, the product of the inverse roots gathered at an edge's two ends -/

set_option maxHeartbeats 2000000 in
theorem s02_v31 (x1 : (⟨S2x500000, .i32⟩ : BufTy).Contents (Elt F))
    (h15 : V (dr main_v15) = val_main_v16 x1) (h3 : V (dr main_v3) = val_main_v3 x1) (h6 : V (dr main_v6) = val_main_v6 x1) :
    after hostOps0_2 V (dr main_v31) = val_main_v39 x1 := by
  after_results_simp
  rw [h15, h3, h6]; rfl
theorem s02_v3 : after hostOps0_2 V (dr main_v3) = V (dr main_v3) := by after_results
theorem s02_v6 : after hostOps0_2 V (dr main_v6) = V (dr main_v6) := by after_results
theorem s02_arg0 : after hostOps0_2 V (dr main_arg0) = V (dr main_arg0) := by after_results
theorem s02_arg2 : after hostOps0_2 V (dr main_arg2) = V (dr main_arg2) := by after_results
theorem s02_arg3 : after hostOps0_2 V (dr main_arg3) = V (dr main_arg3) := by after_results
theorem s02_arg4 : after hostOps0_2 V (dr main_arg4) = V (dr main_arg4) := by after_results
theorem s02_arg5 : after hostOps0_2 V (dr main_arg5) = V (dr main_arg5) := by after_results

/-! ## Between the first and the second launch: the first layer's aggregation, and the first bias as one row -/

set_option maxHeartbeats 2000000 in
theorem s1_v44 (x0 : (⟨S50000x128, .f32⟩ : BufTy).Contents (Elt F)) (x1 : (⟨S2x500000, .i32⟩ : BufTy).Contents (Elt F)) (x2 : (⟨S128x128, .f32⟩ : BufTy).Contents (Elt F))
    (h32 : V (dr main_v32) = val_main_v7 x0 x2) (h3 : V (dr main_v3) = val_main_v3 x1) (h6 : V (dr main_v6) = val_main_v6 x1)
    (h31 : V (dr main_v31) = val_main_v39 x1) :
    after hostOps1 V (dr main_v44) = val_main_v44 x0 x1 x2 := by
  after_results_simp
  rw [h32, h3, h6, h31]; rfl
theorem s1_v45 : after hostOps1 V (dr main_v45) = shapeCast S1x128 (V (dr main_arg3)) shapeCasts_S128_S1x128 := by
  after_results; rfl
theorem s1_v3 : after hostOps1 V (dr main_v3) = V (dr main_v3) := by after_results
theorem s1_v6 : after hostOps1 V (dr main_v6) = V (dr main_v6) := by after_results
theorem s1_v31 : after hostOps1 V (dr main_v31) = V (dr main_v31) := by after_results
theorem s1_arg4 : after hostOps1 V (dr main_arg4) = V (dr main_arg4) := by after_results
theorem s1_arg5 : after hostOps1 V (dr main_arg5) = V (dr main_arg5) := by after_results

/-! ## Between the third and the fourth launch: the second layer's aggregation, and the second bias as one row -/

/-- The reference computes the edge weight a second time, from the same index vectors by the same operations. -/
theorem weight_again (x1 : (⟨S2x500000, .i32⟩ : BufTy).Contents (Elt F)) : val_main_v81 x1 = val_main_v39 x1 := rfl

set_option maxHeartbeats 2000000 in
theorem s3_v59 (x0 : (⟨S50000x128, .f32⟩ : BufTy).Contents (Elt F)) (x1 : (⟨S2x500000, .i32⟩ : BufTy).Contents (Elt F)) (x2 : (⟨S128x128, .f32⟩ : BufTy).Contents (Elt F))
    (x3 : (⟨S128, .f32⟩ : BufTy).Contents (Elt F)) (x4 : (⟨S128x64, .f32⟩ : BufTy).Contents (Elt F))
    (h47 : V (dr main_v47) = val_main_v49 x0 x1 x2 x3 x4) (h3 : V (dr main_v3) = val_main_v3 x1) (h6 : V (dr main_v6) = val_main_v6 x1)
    (h31 : V (dr main_v31) = val_main_v39 x1) :
    after hostOps3 V (dr main_v59) = val_main_v86 x0 x1 x2 x3 x4 := by
  after_results_simp
  rw [h47, h3, h6, h31, ← weight_again]; rfl
theorem s3_v60 : after hostOps3 V (dr main_v60) = shapeCast S1x64 (V (dr main_arg5)) shapeCasts_S64_S1x64 := by
  after_results; rfl

end Cert.KernelIdeal.HostChain

end
-- ==== Proof.MatMulA.lean ====
/-
  The first dense stage: what the first launch leaves in its result array, over the extended reals. Its grid has ten points;
  point `t` reads rows `5000 t … 5000 t + 4999` of the node features (50000 × 128) and the whole weight matrix (128 × 128),
  and writes the same rows of the result: entry (r, c) is the sum over k of feature (r, k) times weight (k, c) (the change
  of float format before the product is the identity over the reals, and the product is accumulated into zero). The ten
  row blocks tile the array, so the whole result is the matrix product of the two arrays the launch finds.
-/
import proofs.«110779_j23390391894412_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MatMulA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the launch reads, at their literal types. -/
abbrev arrA (c : Dev nD) : Vec Ideal S50000x128 .f32 := V c main_arg0
abbrev arrW (c : Dev nD) : Vec Ideal S128x128 .f32 := V c main_arg2

/-- The matrix product, entry by entry: row `i 0` of `a` against column `i 1` of `w`. -/
abbrev matProd (a : Vec Ideal S50000x128 .f32) (w : Vec Ideal S128x128 .f32) : Vec Ideal S50000x128 .f32 :=
  fun i => ∑ k : Fin 128, a (ix2 (i 0) k) * w (ix2 k (i 1))

/-! The block product's operand indices: at result entry `j` and contraction index `q` the left operand is read at
    (`j 0`, `q`) and the right one at (`q`, `j 1`). -/
theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of a block: row `p` of the feature block against column `q` of the weights. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The block indices over the grid: the feature window and the result window move together down the rows, the weight
    window stays at its one block. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the matrix product of the two arrays the launch finds. -/
theorem flushed_eq (c : Dev nD) (t : Fin cfg0.N) :
    (dat0 V c).flushed 2 t = ((cfg0.win 2).blk t).view.read (Elt Ideal) (matProd (arrA V c) (arrW V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = _
  rw [pay_apply]
  show _ = ∑ k : Fin 128, arrA V c (ix2 ((((cfg0.win 2).blk t).view.emb (ix2 p q)) 0) k) * arrW V c (ix2 k ((((cfg0.win 2).blk t).view.emb (ix2 p q)) 1))
  refine Finset.sum_congr rfl fun k _ => ?_
  show arrA V c (((cfg0.win 0).blk t).view.emb (ix2 p k)) * arrW V c (((cfg0.win 1).blk t).view.emb (ix2 k q))
    = arrA V c (ix2 ((((cfg0.win 2).blk t).view.emb (ix2 p q)) 0) k) * arrW V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten row blocks tile the array: row `r` lies in the block of point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the launch: the matrix product of the two arrays the launch finds. -/
theorem final (c : Dev nD) : (dat0 V c).arrAt 2 cfg0.N = matProd (arrA V c) (arrW V c) :=
  (dat0 V c).arrAt_eq_of_cover 2 _ (fun t _ => flushed_eq V c t) cover

end Cert.KernelIdeal.MatMulA

end
-- ==== Proof.MatMulB.lean ====
/-
  The second dense stage: what the third launch leaves in its result array, over the extended reals. Its grid has ten points;
  point `t` reads rows `5000 t … 5000 t + 4999` of the hidden features (50000 × 128) and the whole second weight matrix
  (128 × 64), and writes the same rows of the result (50000 × 64): entry (r, c) is the sum over k of hidden (r, k) times
  weight (k, c) (the change of float format before the product is the identity over the reals, and the product is
  accumulated into zero). The ten row blocks tile the array, so the whole result is the matrix product of the two arrays
  the launch finds.
-/
import proofs.«110779_j23390391894412_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MatMulB

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the launch reads, at their literal types. -/
abbrev arrH (c : Dev nD) : Vec Ideal S50000x128 .f32 := V c main_v46
abbrev arrW (c : Dev nD) : Vec Ideal S128x64 .f32 := V c main_arg4

/-- The matrix product, entry by entry: row `i 0` of `a` against column `i 1` of `w`. -/
abbrev matProd (a : Vec Ideal S50000x128 .f32) (w : Vec Ideal S128x64 .f32) : Vec Ideal S50000x64 .f32 :=
  fun i => ∑ k : Fin 128, a (ix2 (i 0) k) * w (ix2 k (i 1))

/-! The block product's operand indices: at result entry `j` and contraction index `q` the left operand is read at
    (`j 0`, `q`) and the right one at (`q`, `j 1`). -/
theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at row `p`, column `q` of a block: row `p` of the hidden block against column `q` of the weights. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [shapeCast_self]
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The block indices over the grid: the hidden window and the result window move together down the rows, the weight
    window stays at its one block. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the matrix product of the two arrays the launch finds. -/
theorem flushed_eq (c : Dev nD) (t : Fin cfg2.N) :
    (dat2 V c).flushed 2 t = ((cfg2.win 2).blk t).view.read (Elt Ideal) (matProd (arrH V c) (arrW V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = _
  rw [pay_apply]
  show _ = ∑ k : Fin 128, arrH V c (ix2 ((((cfg2.win 2).blk t).view.emb (ix2 p q)) 0) k) * arrW V c (ix2 k ((((cfg2.win 2).blk t).view.emb (ix2 p q)) 1))
  refine Finset.sum_congr rfl fun k _ => ?_
  show arrH V c (((cfg2.win 0).blk t).view.emb (ix2 p k)) * arrW V c (((cfg2.win 1).blk t).view.emb (ix2 k q))
    = arrH V c (ix2 ((((cfg2.win 2).blk t).view.emb (ix2 p q)) 0) k) * arrW V c (ix2 k ((((cfg2.win 2).blk t).view.emb (ix2 p q)) 1))
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [h0, h1]
  rfl

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- The ten row blocks tile the array: row `r` lies in the block of point `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the launch: the matrix product of the two arrays the launch finds. -/
theorem final (c : Dev nD) : (dat2 V c).arrAt 2 cfg2.N = matProd (arrH V c) (arrW V c) :=
  (dat2 V c).arrAt_eq_of_cover 2 _ (fun t _ => flushed_eq V c t) cover

end Cert.KernelIdeal.MatMulB

end
-- ==== Proof.BiasRelu.lean ====
/-
  The first bias stage: what the second launch leaves in its result array. Its grid has ten points; point `t` reads rows
  `5000 t … 5000 t + 4999` of the aggregated features (50000 × 128) and the one bias row (1 × 128), and writes the same rows of
  the result: each entry is the feature plus the bias of its column, clipped below at zero. The ten row blocks tile the
  array, so the whole result is that one function of the two arrays the launch finds, index by index.
-/
import proofs.«110779_j23390391894412_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every row of `a` plus the one row `b`, clipped below at zero. -/
abbrev biasRelu (a : S50000x128.Idx → Elt F .f32) (b : S1x128.Idx → Elt F .f32) : S50000x128.Idx → Elt F .f32 :=
  fun i => FloatOps.maximumf (FloatOps.addf (a i) (b (ix2 (0 : Fin 1) (i 1)))) (Scalar.ofBits .f32 0x00000000#32)

/-- The body's stored value at row `p`, column `q` of a block: the block's entry plus the bias row's entry at `q`, clipped. -/
theorem pay_apply (x0 : Vec F S5000x128 .f32) (x1 : Vec F S1x128 .f32) (p : Fin 5000) (q : Fin 128) :
    k1_pay1 x0 x1 (ix2 p q) = FloatOps.maximumf (FloatOps.addf (x0 (ix2 p q)) (x1 (ix2 (0 : Fin 1) q))) (Scalar.ofBits .f32 0x00000000#32) := by
  unfold k1_pay1
  rw [shapeCast_self, shapeCast_self]
  show FloatOps.maximumf (FloatOps.addf (x0 (ix2 p q)) (broadcastTo S5000x128 x1 broadcasts_S1x128_S5000x128 (ix2 p q))) _ = _
  rw [broadcastTo_1b_ab_apply]
  rfl

/-- The block indices over the grid: the feature window and the result window move together down the rows, the bias
    window stays at its one block. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of `biasRelu` of the two arrays the launch finds. -/
theorem flushed_eq (c : Dev nD) (t : Fin cfg1.N) :
    (dat1 V c).flushed 2 t = ((cfg1.win 2).blk t).view.read (Elt F) (biasRelu (V c main_v44) (V c main_v45)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q) = _
  rw [pay_apply]
  show FloatOps.maximumf (FloatOps.addf (V c main_v44 (((cfg1.win 0).blk t).view.emb (ix2 p q))) (V c main_v45 (((cfg1.win 1).blk t).view.emb (ix2 (0 : Fin 1) q)))) _
    = FloatOps.maximumf (FloatOps.addf (V c main_v44 (((cfg1.win 2).blk t).view.emb (ix2 p q))) (V c main_v45 (ix2 (0 : Fin 1) ((((cfg1.win 2).blk t).view.emb (ix2 p q)) 1)))) _
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- The ten row blocks tile the array: row `r` lies in the block of point `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the launch: `biasRelu` of the two arrays the launch finds. -/
theorem final (c : Dev nD) : (dat1 V c).arrAt 2 cfg1.N = biasRelu (V c main_v44) (V c main_v45) :=
  (dat1 V c).arrAt_eq_of_cover 2 _ (fun t _ => flushed_eq V c t) cover

end Cert.KernelIdeal.BiasRelu

end
-- ==== Proof.Bias.lean ====
/-
  The second bias stage: what the fourth launch leaves in its result array (the program's result). Its grid has ten points;
  point `t` reads rows `5000 t … 5000 t + 4999` of the aggregated features (50000 × 64) and the one bias row (1 × 64), and writes
  the same rows of the result: each entry is the feature plus the bias of its column. The ten row blocks tile the array, so
  the whole result is that one function of the two arrays the launch finds, index by index.
-/
import proofs.«110779_j23390391894412_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Bias

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every row of `a` plus the one row `b`. -/
abbrev bias (a : S50000x64.Idx → Elt F .f32) (b : S1x64.Idx → Elt F .f32) : S50000x64.Idx → Elt F .f32 :=
  fun i => FloatOps.addf (a i) (b (ix2 (0 : Fin 1) (i 1)))

/-- The body's stored value at row `p`, column `q` of a block: the block's entry plus the bias row's entry at `q`. -/
theorem pay_apply (x0 : Vec F S5000x64 .f32) (x1 : Vec F S1x64 .f32) (p : Fin 5000) (q : Fin 64) :
    k3_pay1 x0 x1 (ix2 p q) = FloatOps.addf (x0 (ix2 p q)) (x1 (ix2 (0 : Fin 1) q)) := by
  unfold k3_pay1
  rw [shapeCast_self, shapeCast_self]
  show FloatOps.addf (x0 (ix2 p q)) (broadcastTo S5000x64 x1 broadcasts_S1x64_S5000x64 (ix2 p q)) = _
  rw [broadcastTo_1b_ab_apply]

/-- The block indices over the grid: the feature window and the result window move together down the rows, the bias
    window stays at its one block. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of `bias` of the two arrays the launch finds. -/
theorem flushed_eq (c : Dev nD) (t : Fin cfg3.N) :
    (dat3 V c).flushed 2 t = ((cfg3.win 2).blk t).view.read (Elt F) (bias (V c main_v59) (V c main_v60)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q) = _
  rw [pay_apply]
  show FloatOps.addf (V c main_v59 (((cfg3.win 0).blk t).view.emb (ix2 p q))) (V c main_v60 (((cfg3.win 1).blk t).view.emb (ix2 (0 : Fin 1) q)))
    = FloatOps.addf (V c main_v59 (((cfg3.win 2).blk t).view.emb (ix2 p q))) (V c main_v60 (ix2 (0 : Fin 1) ((((cfg3.win 2).blk t).view.emb (ix2 p q)) 1)))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten row blocks tile the array: row `r` lies in the block of point `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the launch: `bias` of the two arrays the launch finds. -/
theorem final (c : Dev nD) : (dat3 V c).arrAt 2 cfg3.N = bias (V c main_v59) (V c main_v60) :=
  (dat3 V c).arrAt_eq_of_cover 2 _ (fun t _ => flushed_eq V c t) cover

end Cert.KernelIdeal.Bias

end
-- ==== Proof.Stages.lean ====
/-
  The launches' results against the stages of the reference, over the extended reals. The reference's dense stages are
  `dot_general`s, sums over the contracted axis of products, which is what a launch's row blocks hold entry by entry; its
  bias stages add the bias vector, made a row and repeated down the rows, and clip below at zero after the first layer,
  which is what the bias launches hold entry by entry, the bias reaching them as a one-row array.
-/
import proofs.«110779_j23390391894412_1_alg».proof.Proof.MatMulA
import proofs.«110779_j23390391894412_1_alg».proof.Proof.MatMulB
import proofs.«110779_j23390391894412_1_alg».proof.Proof.BiasRelu
import proofs.«110779_j23390391894412_1_alg».proof.Proof.Bias
import proofs.«110779_j23390391894412_1_alg».proof.Proof.RefRead

noncomputable section

namespace Cert.KernelIdeal.Stages

open Cert.KernelIdeal Cert.KernelIdeal.Gen Idealize.ShloMosaic Idealize.ShloMosaic.TcCoe Idealize.SL.Sem
open Idealize.ShloMosaic.ValueIdx
open Cert.ReferenceIdeal.ReadP

/-- The first dense stage: the matrix product is the reference's `dot_general` of the features and the first weights. -/
theorem st_v7 (x0 : Vec Ideal S50000x128 .f32) (x2 : Vec Ideal S128x128 .f32) :
    MatMulA.matProd x0 x2 = val_main_v7 (F := Ideal) x0 x2 := by
  funext i
  rw [val_main_v7_apply]
  show (∑ k : Fin 128, x0 (ix2 (i 0) k) * x2 (ix2 k (i 1))) = _
  refine Finset.sum_congr rfl fun k _ => ?_
  have el : lidx_main_v7 i k = ix2 (i 0) k := funext fun a => by
    match a with
    | ⟨0, _⟩ => rfl
    | ⟨1, _⟩ => rfl
  have er : ridx_main_v7 i k = ix2 k (i 1) := funext fun a => by
    match a with
    | ⟨0, _⟩ => rfl
    | ⟨1, _⟩ => rfl
  rw [el, er]
  rfl

/-- The second dense stage: the matrix product of the hidden features and the second weights is the reference's. -/
theorem st_v49 (x0 : Vec Ideal S50000x128 .f32) (x1 : (⟨S2x500000, .i32⟩ : BufTy).Contents (Elt Ideal)) (x2 : Vec Ideal S128x128 .f32) (x3 : Vec Ideal S128 .f32) (x4 : Vec Ideal S128x64 .f32) :
    MatMulB.matProd (val_main_v48 (F := Ideal) x0 x1 x2 x3) x4 = val_main_v49 (F := Ideal) x0 x1 x2 x3 x4 := by
  funext i
  rw [val_main_v49_apply]
  show (∑ k : Fin 128, val_main_v48 (F := Ideal) x0 x1 x2 x3 (ix2 (i 0) k) * x4 (ix2 k (i 1))) = _
  refine Finset.sum_congr rfl fun k _ => ?_
  have el : lidx_main_v49 i k = ix2 (i 0) k := funext fun a => by
    match a with
    | ⟨0, _⟩ => rfl
    | ⟨1, _⟩ => rfl
  have er : ridx_main_v49 i k = ix2 k (i 1) := funext fun a => by
    match a with
    | ⟨0, _⟩ => rfl
    | ⟨1, _⟩ => rfl
  rw [el, er]
  rfl

variable {F : FTy → Type} [FloatOps F]

/-- The first bias stage: adding the bias as a one-row array and clipping at zero is the reference's add of the bias
    repeated down the rows followed by its maximum with zero. -/
theorem st_v48 (x0 : Vec F S50000x128 .f32) (x1 : (⟨S2x500000, .i32⟩ : BufTy).Contents (Elt F)) (x2 : Vec F S128x128 .f32) (x3 : Vec F S128 .f32) :
    BiasRelu.biasRelu (val_main_v44 (F := F) x0 x1 x2) (shapeCast S1x128 x3 shapeCasts_S128_S1x128) = val_main_v48 (F := F) x0 x1 x2 x3 := by
  funext i
  obtain ⟨p, q, rfl⟩ : ∃ (p : Fin 50000) (q : Fin 128), i = ix2 p q := ⟨i 0, i 1, eq_ix2 i⟩
  rw [val_main_v48_apply, val_main_v47_apply, val_main_v46_apply, val_main_v45_apply, val_main_call1_v0_apply, val_main_call1_cst_apply]
  show FloatOps.maximumf (FloatOps.addf (val_main_v44 (F := F) x0 x1 x2 (ix2 p q)) (shapeCast S1x128 x3 shapeCasts_S128_S1x128 (ix2 (0 : Fin 1) q))) (FloatOps.ofBits .f32 0x00000000#32) = _
  rw [shapeCast_a_1a_apply]
  have e : idx_main_v45 (idx_main_v46 (ix2 p q)) = ix1 q := funext fun a => by
    match a with
    | ⟨0, _⟩ => rfl
  rw [e]

/-- The second bias stage: adding the bias as a one-row array is the reference's add of the bias repeated down the rows. -/
theorem st_v89 (x0 : Vec F S50000x128 .f32) (x1 : (⟨S2x500000, .i32⟩ : BufTy).Contents (Elt F)) (x2 : Vec F S128x128 .f32) (x3 : Vec F S128 .f32) (x4 : Vec F S128x64 .f32) (x5 : Vec F S64 .f32) :
    Bias.bias (val_main_v86 (F := F) x0 x1 x2 x3 x4) (shapeCast S1x64 x5 shapeCasts_S64_S1x64) = val_main_v89 (F := F) x0 x1 x2 x3 x4 x5 := by
  funext i
  obtain ⟨p, q, rfl⟩ : ∃ (p : Fin 50000) (q : Fin 64), i = ix2 p q := ⟨i 0, i 1, eq_ix2 i⟩
  rw [val_main_v89_apply, val_main_v88_apply, val_main_v87_apply]
  show FloatOps.addf (val_main_v86 (F := F) x0 x1 x2 x3 x4 (ix2 p q)) (shapeCast S1x64 x5 shapeCasts_S64_S1x64 (ix2 (0 : Fin 1) q)) = _
  rw [shapeCast_a_1a_apply]
  have e : idx_main_v87 (idx_main_v88 (ix2 p q)) = ix1 q := funext fun a => by
    match a with
    | ⟨0, _⟩ => rfl
  rw [e]

end Cert.KernelIdeal.Stages

end
-- ==== Proof.Thread.lean ====
/-
  The program's result as the reference's last stage. The run passes nine boundaries: three stretches of host operations, the
  first launch, a stretch, the second and third launches, a stretch, the fourth launch. At each boundary the buffers that
  matter hold the reference's stages of the same six arguments: the index vectors and the edge weight are carried unchanged
  from the stretch that computes them to every stretch that reads them, each launch's result array holds its stage's function
  of the arrays it finds, and each stretch turns the stages it reads into the next ones. The last boundary's result array is
  therefore the reference's result.
-/
import proofs.«110779_j23390391894412_1_alg».proof.Proof.Gen.KernelIdeal.Frame
import proofs.«110779_j23390391894412_1_alg».proof.Proof.HostChain
import proofs.«110779_j23390391894412_1_alg».proof.Proof.Stages

noncomputable section

namespace Cert.KernelIdeal.Thread

open Cert.KernelIdeal Cert.KernelIdeal.Gen Idealize.ShloMosaic Idealize.ShloMosaic.TcCoe Idealize.SL.Sem Idealize.ShloMosaic.StableHlo
open Cert.ReferenceIdeal.ReadP Cert.KernelIdeal.HostChain Cert.KernelIdeal.Stages

variable (m : (ℓ : Loc nD τ sig) → Buf (Elt Ideal) ℓ) (ρ : Dev nD → PrngReg) (c : Dev nD)

local notation "dr" => Proc.devRef (τ := τ) (sig := sig) Proc.tc

/-- The six arguments as launched, at their literal types. -/
abbrev a0 : Vec Ideal S50000x128 .f32 := m ((c : Thread nD τ).loc main_arg0)
abbrev a1 : (⟨S2x500000, .i32⟩ : BufTy).Contents (Elt Ideal) := m ((c : Thread nD τ).loc main_arg1)
abbrev a2 : Vec Ideal S128x128 .f32 := m ((c : Thread nD τ).loc main_arg2)
abbrev a3 : Vec Ideal S128 .f32 := m ((c : Thread nD τ).loc main_arg3)
abbrev a4 : Vec Ideal S128x64 .f32 := m ((c : Thread nD τ).loc main_arg4)
abbrev a5 : Vec Ideal S64 .f32 := m ((c : Thread nD τ).loc main_arg5)

/-! ## After the first stretch -/

theorem w1_v3 : W1 m ρ c (dr main_v3) = val_main_v3 (a1 m c) := s0_v3 (W0 m ρ c)
theorem w1_v6 : W1 m ρ c (dr main_v6) = val_main_v6 (a1 m c) := s0_v6 (W0 m ρ c)
theorem w1_v12 : W1 m ρ c (dr main_v12) = val_main_v13 (a1 m c) := s0_v12 (W0 m ρ c)
theorem w1_v13 : W1 m ρ c (dr main_v13) = val_main_v14 (a1 m c) := s0_v13 (W0 m ρ c)
theorem w1_v14 : W1 m ρ c (dr main_v14) = val_main_v15 (F := Ideal) := s0_v14 (W0 m ρ c)
theorem w1_arg0 : W1 m ρ c (dr main_arg0) = a0 m c := s0_arg0 (W0 m ρ c)
theorem w1_arg2 : W1 m ρ c (dr main_arg2) = a2 m c := s0_arg2 (W0 m ρ c)
theorem w1_arg3 : W1 m ρ c (dr main_arg3) = a3 m c := s0_arg3 (W0 m ρ c)
theorem w1_arg4 : W1 m ρ c (dr main_arg4) = a4 m c := s0_arg4 (W0 m ρ c)
theorem w1_arg5 : W1 m ρ c (dr main_arg5) = a5 m c := s0_arg5 (W0 m ρ c)

/-! ## After the second stretch -/

theorem w2_v15 : W2 m ρ c (dr main_v15) = val_main_v16 (a1 m c) :=
  s01_v15 (W1 m ρ c) (a1 m c) (w1_v12 m ρ c) (w1_v13 m ρ c) (w1_v14 m ρ c)
theorem w2_v3 : W2 m ρ c (dr main_v3) = val_main_v3 (a1 m c) := (s01_v3 (W1 m ρ c)).trans (w1_v3 m ρ c)
theorem w2_v6 : W2 m ρ c (dr main_v6) = val_main_v6 (a1 m c) := (s01_v6 (W1 m ρ c)).trans (w1_v6 m ρ c)
theorem w2_arg0 : W2 m ρ c (dr main_arg0) = a0 m c := (s01_arg0 (W1 m ρ c)).trans (w1_arg0 m ρ c)
theorem w2_arg2 : W2 m ρ c (dr main_arg2) = a2 m c := (s01_arg2 (W1 m ρ c)).trans (w1_arg2 m ρ c)
theorem w2_arg3 : W2 m ρ c (dr main_arg3) = a3 m c := (s01_arg3 (W1 m ρ c)).trans (w1_arg3 m ρ c)
theorem w2_arg4 : W2 m ρ c (dr main_arg4) = a4 m c := (s01_arg4 (W1 m ρ c)).trans (w1_arg4 m ρ c)
theorem w2_arg5 : W2 m ρ c (dr main_arg5) = a5 m c := (s01_arg5 (W1 m ρ c)).trans (w1_arg5 m ρ c)

/-! ## After the third stretch: the first launch's entry -/

theorem w3_v31 : W3 m ρ c (dr main_v31) = val_main_v39 (a1 m c) :=
  s02_v31 (W2 m ρ c) (a1 m c) (w2_v15 m ρ c) (w2_v3 m ρ c) (w2_v6 m ρ c)
theorem w3_v3 : W3 m ρ c (dr main_v3) = val_main_v3 (a1 m c) := (s02_v3 (W2 m ρ c)).trans (w2_v3 m ρ c)
theorem w3_v6 : W3 m ρ c (dr main_v6) = val_main_v6 (a1 m c) := (s02_v6 (W2 m ρ c)).trans (w2_v6 m ρ c)
theorem w3_arg0 : W3 m ρ c (dr main_arg0) = a0 m c := (s02_arg0 (W2 m ρ c)).trans (w2_arg0 m ρ c)
theorem w3_arg2 : W3 m ρ c (dr main_arg2) = a2 m c := (s02_arg2 (W2 m ρ c)).trans (w2_arg2 m ρ c)
theorem w3_arg3 : W3 m ρ c (dr main_arg3) = a3 m c := (s02_arg3 (W2 m ρ c)).trans (w2_arg3 m ρ c)
theorem w3_arg4 : W3 m ρ c (dr main_arg4) = a4 m c := (s02_arg4 (W2 m ρ c)).trans (w2_arg4 m ρ c)
theorem w3_arg5 : W3 m ρ c (dr main_arg5) = a5 m c := (s02_arg5 (W2 m ρ c)).trans (w2_arg5 m ρ c)

/-! ## The first launch's exit -/

theorem w4_v32 : W4 m ρ c (dr main_v32) = val_main_v7 (a0 m c) (a2 m c) :=
  (W4_arr m ρ c 2).trans ((MatMulA.final (V3 m ρ) c).trans
    ((congrArg₂ MatMulA.matProd (w3_arg0 m ρ c) (w3_arg2 m ρ c)).trans (st_v7 (a0 m c) (a2 m c))))
theorem w4_v3 : W4 m ρ c (dr main_v3) = val_main_v3 (a1 m c) := (W4_of_ne m ρ c main_v3 (by decide)).trans (w3_v3 m ρ c)
theorem w4_v6 : W4 m ρ c (dr main_v6) = val_main_v6 (a1 m c) := (W4_of_ne m ρ c main_v6 (by decide)).trans (w3_v6 m ρ c)
theorem w4_v31 : W4 m ρ c (dr main_v31) = val_main_v39 (a1 m c) := (W4_of_ne m ρ c main_v31 (by decide)).trans (w3_v31 m ρ c)
theorem w4_arg3 : W4 m ρ c (dr main_arg3) = a3 m c := (W4_of_ne m ρ c main_arg3 (by decide)).trans (w3_arg3 m ρ c)
theorem w4_arg4 : W4 m ρ c (dr main_arg4) = a4 m c := (W4_of_ne m ρ c main_arg4 (by decide)).trans (w3_arg4 m ρ c)
theorem w4_arg5 : W4 m ρ c (dr main_arg5) = a5 m c := (W4_of_ne m ρ c main_arg5 (by decide)).trans (w3_arg5 m ρ c)

/-! ## After the stretch between the first and the second launch -/

theorem w5_v44 : W5 m ρ c (dr main_v44) = val_main_v44 (a0 m c) (a1 m c) (a2 m c) :=
  s1_v44 (W4 m ρ c) (a0 m c) (a1 m c) (a2 m c) (w4_v32 m ρ c) (w4_v3 m ρ c) (w4_v6 m ρ c) (w4_v31 m ρ c)
theorem w5_v45 : W5 m ρ c (dr main_v45) = shapeCast S1x128 (a3 m c) shapeCasts_S128_S1x128 :=
  (s1_v45 (W4 m ρ c)).trans (congrArg (fun y => shapeCast S1x128 y shapeCasts_S128_S1x128) (w4_arg3 m ρ c))
theorem w5_v3 : W5 m ρ c (dr main_v3) = val_main_v3 (a1 m c) := (s1_v3 (W4 m ρ c)).trans (w4_v3 m ρ c)
theorem w5_v6 : W5 m ρ c (dr main_v6) = val_main_v6 (a1 m c) := (s1_v6 (W4 m ρ c)).trans (w4_v6 m ρ c)
theorem w5_v31 : W5 m ρ c (dr main_v31) = val_main_v39 (a1 m c) := (s1_v31 (W4 m ρ c)).trans (w4_v31 m ρ c)
theorem w5_arg4 : W5 m ρ c (dr main_arg4) = a4 m c := (s1_arg4 (W4 m ρ c)).trans (w4_arg4 m ρ c)
theorem w5_arg5 : W5 m ρ c (dr main_arg5) = a5 m c := (s1_arg5 (W4 m ρ c)).trans (w4_arg5 m ρ c)

/-! ## The second launch's exit -/

theorem w6_v46 : W6 m ρ c (dr main_v46) = val_main_v48 (a0 m c) (a1 m c) (a2 m c) (a3 m c) :=
  (W6_arr m ρ c 2).trans ((BiasRelu.final (V5 m ρ) c).trans
    ((congrArg₂ BiasRelu.biasRelu (w5_v44 m ρ c) (w5_v45 m ρ c)).trans (st_v48 (a0 m c) (a1 m c) (a2 m c) (a3 m c))))
theorem w6_v3 : W6 m ρ c (dr main_v3) = val_main_v3 (a1 m c) := (W6_of_ne m ρ c main_v3 (by decide)).trans (w5_v3 m ρ c)
theorem w6_v6 : W6 m ρ c (dr main_v6) = val_main_v6 (a1 m c) := (W6_of_ne m ρ c main_v6 (by decide)).trans (w5_v6 m ρ c)
theorem w6_v31 : W6 m ρ c (dr main_v31) = val_main_v39 (a1 m c) := (W6_of_ne m ρ c main_v31 (by decide)).trans (w5_v31 m ρ c)
theorem w6_arg4 : W6 m ρ c (dr main_arg4) = a4 m c := (W6_of_ne m ρ c main_arg4 (by decide)).trans (w5_arg4 m ρ c)
theorem w6_arg5 : W6 m ρ c (dr main_arg5) = a5 m c := (W6_of_ne m ρ c main_arg5 (by decide)).trans (w5_arg5 m ρ c)

/-! ## The third launch's exit -/

theorem w7_v47 : W7 m ρ c (dr main_v47) = val_main_v49 (a0 m c) (a1 m c) (a2 m c) (a3 m c) (a4 m c) :=
  (W7_arr m ρ c 2).trans ((MatMulB.final (V6 m ρ) c).trans
    ((congrArg₂ MatMulB.matProd (w6_v46 m ρ c) (w6_arg4 m ρ c)).trans (st_v49 (a0 m c) (a1 m c) (a2 m c) (a3 m c) (a4 m c))))
theorem w7_v3 : W7 m ρ c (dr main_v3) = val_main_v3 (a1 m c) := (W7_of_ne m ρ c main_v3 (by decide)).trans (w6_v3 m ρ c)
theorem w7_v6 : W7 m ρ c (dr main_v6) = val_main_v6 (a1 m c) := (W7_of_ne m ρ c main_v6 (by decide)).trans (w6_v6 m ρ c)
theorem w7_v31 : W7 m ρ c (dr main_v31) = val_main_v39 (a1 m c) := (W7_of_ne m ρ c main_v31 (by decide)).trans (w6_v31 m ρ c)
theorem w7_arg5 : W7 m ρ c (dr main_arg5) = a5 m c := (W7_of_ne m ρ c main_arg5 (by decide)).trans (w6_arg5 m ρ c)

/-! ## After the stretch between the third and the fourth launch -/

theorem w8_v59 : W8 m ρ c (dr main_v59) = val_main_v86 (a0 m c) (a1 m c) (a2 m c) (a3 m c) (a4 m c) :=
  s3_v59 (W7 m ρ c) (a0 m c) (a1 m c) (a2 m c) (a3 m c) (a4 m c) (w7_v47 m ρ c) (w7_v3 m ρ c) (w7_v6 m ρ c) (w7_v31 m ρ c)
theorem w8_v60 : W8 m ρ c (dr main_v60) = shapeCast S1x64 (a5 m c) shapeCasts_S64_S1x64 :=
  (s3_v60 (W7 m ρ c)).trans (congrArg (fun y => shapeCast S1x64 y shapeCasts_S64_S1x64) (w7_arg5 m ρ c))

/-! ## The fourth launch's exit: the result -/

theorem w9_v61 : W9 m ρ c (dr main_v61) = val_main_v89 (a0 m c) (a1 m c) (a2 m c) (a3 m c) (a4 m c) (a5 m c) :=
  (W9_arr m ρ c 2).trans ((Bias.final (V8 m ρ) c).trans
    ((congrArg₂ Bias.bias (w8_v59 m ρ c) (w8_v60 m ρ c)).trans (st_v89 (a0 m c) (a1 m c) (a2 m c) (a3 m c) (a4 m c) (a5 m c))))

end Cert.KernelIdeal.Thread

end
-- ==== Proof.lean ====
/- A two-layer graph convolution over 50000 nodes and 550000 edges (the 500000 given ones and a self loop per node), the kernel
   against its plain reference, over the extended reals.

   Both programs compute, per layer, `h = x · W`, gather the source rows of `h`, scale each by the edge weight
   `dinv[row] · dinv[col]` (`dinv` the inverse square root of the in-degree where it is positive), scatter-add them into the
   target rows and add the bias; the first layer's result is clipped below at zero. The kernel does the two matrix products and
   the two bias stages in four launches of ten row blocks each and everything between them on the host, by the very
   operations the reference uses; it computes the edge weight once where the reference computes it once per layer.

   Over the reals a change of float format is the identity, so a launch's block product accumulated into zero is the sum
   over the contracted axis that the reference's `dot_general` is (Proof/MatMulA.lean, Proof/MatMulB.lean), and a bias
   launch adds the bias row to every row and, after the first layer, takes the maximum with zero, entry by entry as the
   reference does (Proof/BiasRelu.lean, Proof/Bias.lean; the four met with the reference's stages in Proof/Stages.lean). The
   host operations between the launches are read against the reference's stages in Proof/HostChain.lean, and Proof/Thread.lean
   carries the stages through the run's nine boundaries to the result. No law of arithmetic beyond reading both sides at an
   index is used, so the precondition is never opened. The three frames are the programs' runs with the result dropped, and
   the idealization rewrote no operation. -/
import proofs.«110779_j23390391894412_1_alg».proof.Defs
import proofs.«110779_j23390391894412_1_alg».proof.Proof.Gen.Kernel
import proofs.«110779_j23390391894412_1_alg».proof.Proof.Gen.Kernel.Skeleton
import proofs.«110779_j23390391894412_1_alg».proof.Proof.Gen.Kernel.Launch
import proofs.«110779_j23390391894412_1_alg».proof.Proof.Gen.Kernel.Points
import proofs.«110779_j23390391894412_1_alg».proof.Proof.Gen.Kernel.Frame
import proofs.«110779_j23390391894412_1_alg».proof.Proof.Gen.KernelIdeal
import proofs.«110779_j23390391894412_1_alg».proof.Proof.Gen.KernelIdeal.Skeleton
import proofs.«110779_j23390391894412_1_alg».proof.Proof.Gen.KernelIdeal.Launch
import proofs.«110779_j23390391894412_1_alg».proof.Proof.Gen.KernelIdeal.Points
import proofs.«110779_j23390391894412_1_alg».proof.Proof.Gen.KernelIdeal.Frame
import proofs.«110779_j23390391894412_1_alg».proof.Proof.Gen.ReferenceIdeal
import proofs.«110779_j23390391894412_1_alg».proof.Proof.Gen.Pre_finite_inputs
import proofs.«110779_j23390391894412_1_alg».proof.Proof.RefRun
import proofs.«110779_j23390391894412_1_alg».proof.Proof.RefRead
import proofs.«110779_j23390391894412_1_alg».proof.Proof.KernelRun
import proofs.«110779_j23390391894412_1_alg».proof.Proof.Thread
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the reference's last stage of those arguments in
    their result arrays: the kernel's run by the stages carried through its boundaries, the reference's by its own run. -/
theorem algebraic : Cert.algebraic_KernelIdeal_ReferenceIdeal := by
  intro m ρ m' ρ' _ hagree
  refine ⟨fun c => Cert.ReferenceIdeal.ReadP.val_main_v89 (F := Ideal) (Cert.KernelIdeal.Thread.a0 m c) (Cert.KernelIdeal.Thread.a1 m c)
      (Cert.KernelIdeal.Thread.a2 m c) (Cert.KernelIdeal.Thread.a3 m c) (Cert.KernelIdeal.Thread.a4 m c) (Cert.KernelIdeal.Thread.a5 m c), ?_, ?_⟩
  · exact (θ_run Cert.KernelIdeal.defs _ _).mono
      (fun _ h c => ⟨(h c).1.trans (Cert.KernelIdeal.Thread.w9_v61 m ρ c), (h c).2⟩)
      (Cert.KernelIdeal.GenRun.run_v61 (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
